-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Carry.lean ====
/-
  The frame of the idealized program's one kernel region, and what its run leaves in every array.

  The region walks 25 grid points. Two of its five windows — the node features and the weights — never move: they
  are fetched once, before the first point, and only the first point reads them, storing their product (the
  projected features) whole into a scratch buffer that lives as long as the region. Every point then takes TWO
  adjacent 200-row blocks of the adjacency matrix — two windows onto the ONE adjacency array, at block rows 2t and
  2t+1 —, multiplies each with the scratch, rectifies, and stores the two results as the halves of a 400-row output
  block, which is written back at once.

  So the proof data says: every input buffer is left at its block; the output buffer at the two rectified
  products; and the invariant carried from point to point is the scratch buffer — at anything before the first
  point, at the projected features ever after. The body is run once for each way its one branch ("is this the
  first point?") goes. Since two windows read one array, that array cannot be held whole by either: each holds it
  at one half of the full share, the two halves being split off the whole at the launch.
  Everything is stated for any float instance.
-/
import proofs.«172428_g23965917511725_cont_8to1_1037_7_alg».proof.Proof.Gen.KernelIdeal.Skeleton
import proofs.«172428_g23965917511725_cont_8to1_1037_7_alg».proof.Proof.Gen.KernelIdeal.Launch
import proofs.«172428_g23965917511725_cont_8to1_1037_7_alg».proof.Proof.Gen.KernelIdeal.Points
import Idealize.ShloMosaic.Lib.Pipeline.Kit
import Idealize.ShloMosaic.Lib.Pipeline.Launch
import Idealize.ShloMosaic.Lib.Pipeline.Frame
import Idealize.ShloMosaic.Lib.Pipeline.FrameBody
import Idealize.ShloMosaic.Lib.Ring
import Idealize.ShloMosaic.Lib.Pipeline.Value
import Idealize.ShloMosaic.Lib.Tactic

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rA : Rect S200x10000 := Rect.unit (s := S200x10000) ![0, 0] S200x10000.size inb_S200x10000_S200x10000_0_0
abbrev rTop : Rect S400x128 := Rect.unit (s := S400x128) ![0, 0] S200x128.size inb_S400x128_S200x128_0_0
abbrev rBot : Rect S400x128 := Rect.unit (s := S400x128) ![200, 0] S200x128.size inb_S400x128_S200x128_200_0

/-- The body's one branch: "this is the grid's first point" (the coordinate compared with zero, as printed). -/
abbrev atFirst (i : grid0.Coords) : Prop :=
  Scalar.cmpi .ne (Scalar.extui (Scalar.cmpi .eq (BitVec.ofNat 32 (i 0).val) 0#32) : BitVec 32) 0#32 = 1#1

/-- Over the grid the branch is taken at point 0 and nowhere else. -/
theorem atFirst_iff : ∀ t : Fin cfg0.N, atFirst (grid0.coords t) ↔ t.val = 0 :=
  (by decide +kernel : ∀ t : Fin grid0.N, atFirst (grid0.coords t) ↔ t.val = 0)

/-- The literal offsets of a whole-buffer access are all zero. -/
theorem hz2 : (![0, 0] : Fin 2 → ℕ) = fun _ => 0 := by
  funext a; match a with | ⟨0, _⟩ => rfl | ⟨1, _⟩ => rfl

/-! ## What the body leaves -/

/-- The projected features the first point keeps in the scratch: the product of the two resident blocks. -/
def kept (x : Vec F S10000x128 .f32) (w : Vec F S128x128 .f32) : Vec F S10000x128 .bf16 :=
  k0_pay1 (View.ld x rX) (View.ld w rW)

/-- The output block after the body, from the two adjacency row blocks `a`, `b` and the scratch `s`: rows 0–199
    the rectified product of `a` with the scratch, rows 200–399 that of `b` (the later store listed first). -/
def outBlk (a b : Vec F S200x10000 .f32) (s : Vec F S10000x128 .bf16) : Vec F S400x128 .f32 :=
  View.canon [⟨rBot, k0_pay3 (View.ld b rA) s⟩, ⟨rTop, k0_pay2 (View.ld a rA) s⟩]

/-- The two half blocks tile the output block. -/
theorem outCover (p q : Vec F S200x128 .f32) (y : S400x128.Idx) :
    ∃ pc ∈ ([⟨rBot, p⟩, ⟨rTop, q⟩] : List (View.Piece (Elt F) S400x128 .f32)), y ∈ pc.1.set :=
  View.cover_of_tiledL [⟨rBot, p⟩, ⟨rTop, q⟩] S200x128.size (by sl_kernel_rfl) y

/-! ## The body's triple, case by case -/

set_option maxHeartbeats 1000000 in
/-- At a later point the branch is skipped: the two row blocks are multiplied with the scratch as it stands, the
    output block is overwritten whole, and the scratch and the inputs are left as found. -/
theorem kernelLater (c : Dev nD) (E : Set ℕ) (i : grid0.Coords) (hc : ¬ atFirst i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x128 .bf16) (harg6 : arg6.IsWhole)
    (a b : Vec F S200x10000 .f32) (s : Vec F S10000x128 .bf16) (K : PUnit → sProp 𝕄) :
    iprop(owns (c : Thread nD τ) arg3 fullShare a ∗ owns (c : Thread nD τ) arg4 fullShare b
        ∗ (∃ d, owns (c : Thread nD τ) arg5 fullShare d) ∗ owns (c : Thread nD τ) arg6 fullShare s
        ∗ (iprop(owns (c : Thread nD τ) arg3 fullShare a ∗ owns (c : Thread nD τ) arg4 fullShare b
            ∗ owns (c : Thread nD τ) arg5 fullShare (outBlk a b s) ∗ owns (c : Thread nD τ) arg6 fullShare s) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f3, %hf3, H3⟩, ⟨%f4, %hf4, H4⟩, ⟨%d5, %f5, -, H5⟩, ⟨%f6, %hf6, H6⟩, Hk⟩
  subst hf3 hf4 hf6
  sl_exec (disch := exact hc)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (outCover _ _)]
    unfold outBlk
    have e : View.readAt (Elt F) arg6.view rX.toLoadRect f6 = View.read (Elt F) arg6.view f6 :=
      View.ld_unit_zero (S := S10000x128) hz2 inb_S10000x128_S10000x128_0_0 (View.read (Elt F) arg6.view f6)
    rw [e]
    try rfl
  iexists f6; isplitr; · ipureintro; rfl
  iexact H6

set_option maxHeartbeats 1000000 in
/-- At the first point the branch is taken: the scratch is overwritten whole with the product of the two resident
    blocks, whatever it held; the two row blocks are then multiplied with what was just stored. -/
theorem kernelFirst (c : Dev nD) (E : Set ℕ) (i : grid0.Coords) (hc : atFirst i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x128 .bf16) (harg6 : arg6.IsWhole)
    (x : Vec F S10000x128 .f32) (w : Vec F S128x128 .f32) (a b : Vec F S200x10000 .f32) (K : PUnit → sProp 𝕄) :
    iprop(owns (c : Thread nD τ) arg1 fullShare x ∗ owns (c : Thread nD τ) arg2 fullShare w
        ∗ owns (c : Thread nD τ) arg3 fullShare a ∗ owns (c : Thread nD τ) arg4 fullShare b
        ∗ (∃ d, owns (c : Thread nD τ) arg5 fullShare d) ∗ (∃ s, owns (c : Thread nD τ) arg6 fullShare s)
        ∗ (iprop(owns (c : Thread nD τ) arg1 fullShare x ∗ owns (c : Thread nD τ) arg2 fullShare w
            ∗ owns (c : Thread nD τ) arg3 fullShare a ∗ owns (c : Thread nD τ) arg4 fullShare b
            ∗ owns (c : Thread nD τ) arg5 fullShare (outBlk a b (kept x w)) ∗ owns (c : Thread nD τ) arg6 fullShare (kept x w)) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d5, %f5, -, H5⟩, ⟨%s6, %f6, -, H6⟩, Hk⟩
  subst hf1 hf2 hf3 hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (outCover _ _)]
    unfold outBlk kept
    sl_unfold_words
    simp only [View.readCov_unit_zero (S := S10000x128) _ hz2]
    rfl
  iexists _; isplitr
  swap; · iexact H6
  ipureintro
  sl_unfold_words
  rw [View.read_writes_eq_canon _ _ _ (fun y => ⟨_, List.mem_singleton_self _, View.mem_set_unit_zero hz2 inb_S10000x128_S10000x128_0_0 y⟩), View.canon_unit_zero hz2]
  rfl

/-! ## The proof data -/

variable (m : (ℓ : Loc nD τ sig) → Buf (Elt F) ℓ) (ρ : Dev nD → PrngReg)

/-- Core `c`'s buffers when the region is entered: as launched (@main is the region alone). -/
abbrev V (c : Dev nD) (b : Ref sig .tc) : Buf (Elt F) ((c : Thread nD τ).loc b) := m ((c : Thread nD τ).loc b)

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid's first point. -/
abbrev t₀ : Fin cfg0.N := ⟨0, by decide⟩

/-- What the scratch holds from the first point on: the product of the features with the weights. -/
def scr (c : Dev nD) : Vec F S10000x128 .bf16 := kept (iblk m c 0 t₀) (iblk m c 1 t₀)

/-- The invariant carried from point to point: the scratch buffer, at anything before the first point and at the
    projected features after it. -/
def Phi (c : Dev nD) : ℕ → sProp 𝕄
  | 0 => iprop(∃ s, owns (c : Thread nD τ) (Memref.whole cc0_scratch0) fullShare s)
  | _ + 1 => owns (c : Thread nD τ) (Memref.whole cc0_scratch0) fullShare (scr m c)

/-- The proof data of the one pipeline on core `c`: the arrays as launched; every input's buffer left at its block;
    the output's at the two rectified products of the point's row blocks with the scratch; the scratch carried;
    nothing owed. The two windows on the adjacency array hold it at complementary halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 2 t) (iblk m c 3 t) (scr m c)
  Φ t := Phi m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 2 t) (iblk m c 3 t) (scr m c) := by dsimp only [dats]

/-- An input's buffer holds its block at every point, fetched there or not: the body leaves it in place, and where
    it is not fetched its block index has not moved. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- The output's buffer is fresh at every point: the point before wrote its block back. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. At the first the scratch is at anything and ends at the projected features; at a later
    one it is at the projected features and is only read. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, Phi_castSucc, Phi_succ]
  by_cases h0 : t.val = 0
  · have hc : atFirst (grid0.coords t) := (atFirst_iff t).mpr h0
    obtain rfl : t = t₀ := Fin.ext h0
    show iprop(Phi m c 0 ∗ _) ⊢ _
    unfold Phi
    iintro ⟨⟨%s, HΦ⟩, Ho, ⟨%d0, H0⟩, ⟨%d1, H1⟩, ⟨%d2, H2⟩, ⟨%d3, H3⟩, ⟨%d4, H4⟩⟩
    iapply (kernelFirst c Set.univ _ hc _ _ _ _ _ _ _ _ _ _ _ _ (iblk m c 0 t₀) (iblk m c 1 t₀) (iblk m c 2 t₀) (iblk m c 3 t₀) _)
    isplitl [H0]; · iexact H0
    isplitl [H1]; · iexact H1
    isplitl [H2]; · iexact H2
    isplitl [H3]; · iexact H3
    isplitl [H4]; · iexists _; iexact H4
    isplitl [HΦ]; · iexists _; iexact HΦ
    iintro ⟨H0, H1, H2, H3, H4, HΦ⟩
    isplitl [HΦ]; · iexact HΦ
    isplitl [Ho]; · iexact Ho
    isplitl [H0]; · iexact H0
    isplitl [H1]; · iexact H1
    isplitl [H2]; · iexact H2
    isplitl [H3]; · iexact H3
    iexact H4
  · have hc : ¬ atFirst (grid0.coords t) := fun h => h0 ((atFirst_iff t).mp h)
    obtain ⟨n, hn⟩ : ∃ n, t.val = n + 1 := ⟨t.val - 1, by omega⟩
    rw [hn]
    show iprop(Phi m c (n + 1) ∗ _) ⊢ _
    unfold Phi
    iintro ⟨HΦ, Ho, ⟨%d0, H0⟩, ⟨%d1, H1⟩, ⟨%d2, H2⟩, ⟨%d3, H3⟩, ⟨%d4, H4⟩⟩
    iapply (kernelLater c Set.univ _ hc _ _ _ _ _ _ _ _ _ _ _ _ (iblk m c 2 t) (iblk m c 3 t) (scr m c) _)
    isplitl [H2]; · iexact H2
    isplitl [H3]; · iexact H3
    isplitl [H4]; · iexists _; iexact H4
    isplitl [HΦ]; · iexact HΦ
    iintro ⟨H2, H3, H4, HΦ⟩
    isplitl [HΦ]; · iexact HΦ
    isplitl [Ho]; · iexact Ho
    isplitl [H0]; · iexact H0
    isplitl [H1]; · iexact H1
    isplitl [H2]; · iexact H2
    isplitl [H3]; · iexact H3
    iexact H4

theorem body_obligation (c : Dev nD) : BodyObligationLoose (dats (F := F) m 0 c) (defs₀ (F := F)) Variants.none () Set.univ := fun t => by
  rw [bigSep_W0, bigSep_W0]
  exact sound_body m c t

end Cert.KernelIdeal.Carry

end
-- ==== Proof.CarryRun.lean ====
/-
  The launch of the idealized program's region and the frame read off it.

  The region's five windows sit on four buffers: the adjacency array is read through two windows. At the launch
  the buffers are whole; the adjacency array is split along its share, one half for each of its windows (an input
  is only read, so a half suffices, and the halves rejoin to the whole when the region ends). The scratch is handed
  to the region at anything and returned at anything. The launch theorem for windows sharing an array then gives
  the run: it terminates, nothing faults, and each windowed array ends at what the write-backs make of it — for the
  three arguments, read only, what they held.
-/
import proofs.«172428_g23965917511725_cont_8to1_1037_7_alg».proof.Proof.Carry
import Idealize.ShloMosaic.Lib.Pipeline.Kit
import Idealize.ShloMosaic.Lib.Pipeline.Launch
import Idealize.ShloMosaic.Rules.PointsTo

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The proof's resource algebra: one copy of the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The windows' arrays, each a whole buffer, at the share its window holds it at. -/
theorem arrays_eq (c : Dev nD) (G : (w : Fin cfg0.W) → Buf (Elt F) ((cfg0.win w).arr.view.loc (c : Thread nD τ))) :
    ((dats m 0 c).arrays G : sProp 𝕄)
      = bigSep Finset.univ fun w => (((c : Thread nD τ).loc (Pipeline.arrRef spec0 w)) ↦{(dats m 0 c).share w} G w : sProp 𝕄) := by
  unfold Dat.arrays
  exact bigSep_congr fun w _ => by rw [(arr_whole0 w).set_eq_univ]

theorem share_0 (c : Dev nD) : (dats m 0 c).share 0 = fullShare := by unfold Dat.share; rfl
theorem share_1 (c : Dev nD) : (dats m 0 c).share 1 = fullShare := by unfold Dat.share; rfl
theorem share_2 (c : Dev nD) : (dats m 0 c).share 2 = fullShare.left := by unfold Dat.share; rfl
theorem share_3 (c : Dev nD) : (dats m 0 c).share 3 = fullShare.right := by unfold Dat.share; rfl
theorem share_4 (c : Dev nD) : (dats m 0 c).share 4 = fullShare := by unfold Dat.share; rfl

/-- The four buffers behind the five windows, each whole at the full share, make the windows' arrays at entry: the
    adjacency array, read through two windows, is split along its share — one half to each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs
  rw [arrays_eq, bigSep_eq_bigSepL_of_eq [main_arg0, main_arg2, main_arg1, main_v0] (by decide) (by decide), bigSep_W0,
    share_0, share_1, share_2, share_3, share_4]
  show (iprop((((c : Thread nD τ).loc main_arg0) ↦{fullShare} V m c main_arg0)
      ∗ (((c : Thread nD τ).loc main_arg2) ↦{fullShare} V m c main_arg2)
      ∗ (((c : Thread nD τ).loc main_arg1) ↦{fullShare} V m c main_arg1)
      ∗ (((c : Thread nD τ).loc main_v0) ↦{fullShare} V m c main_v0)) : sProp 𝕄) ⊢ _
  iintro ⟨H0, H2, H1, Hv⟩
  ihave H1 := (pointsTo_share (PosShare.mem_left_op_right fullShare)).1 $$ H1
  icases H1 with ⟨H1l, H1r⟩
  isplitl [H0]; · iexact H0
  isplitl [H2]; · iexact H2
  isplitl [H1l]; · iexact H1l
  isplitl [H1r]; · iexact H1r
  iexact Hv

/-- What the launch hands the region — the scratch at anything — is the invariant before the first point. -/
theorem hin (c : Dev nD) : iprop(emp ∗ Pipeline.scopedRest spec0 c) ⊢ (dats m 0 c).Φ 0 := by
  rw [scopedRest0_eq, show (dats m 0 c).Φ 0 = Phi m c 0 from rfl]
  unfold Phi
  simp only [owns_whole]
  iintro ⟨-, ⟨%f, H⟩⟩
  iexists f; iexact H

/-- After the last point the invariant gives the scratch back, its contents forgotten. -/
theorem hout (c : Dev nD) : (dats m 0 c).Φ (Fin.last cfg0.N) ⊢ iprop(emp ∗ Pipeline.scopedRest spec0 c) := by
  rw [scopedRest0_eq, show (dats m 0 c).Φ (Fin.last cfg0.N) = Phi m c (24 + 1) from rfl]
  unfold Phi
  simp only [owns_whole]
  iintro H
  isplitr; · iempintro
  iexists _; iexact H

/-- An array's contents after the run, as the library computes them. -/
def finalA (c : Dev nD) (w : Fin cfg0.W) : Buf (Elt F) ((cfg0.win w).arr.view.loc (c : Thread nD τ)) :=
  (dats m 0 c).arrAt w cfg0.N

/-- The physical post: every windowed array holds what the library computes it holds after the last write-back. -/
def QC : PUnit × MemSt nD τ sig (Elt F) → Prop := fun r =>
  ∀ (c : Dev nD) (w : Fin cfg0.W), r.2.mem ((cfg0.win w).arr.view.loc (c : Thread nD τ)) = finalA m c w

set_option backward.isDefEq.respectTransparency.types false in
/-- For any float values, from any memory with zero counters: every weakly fair execution of @main terminates,
    and every final state has each windowed array at its computed contents. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The three argument arrays are inputs of the region: after the run they hold what they held. -/
theorem finalA_x (c : Dev nD) : finalA m c (0 : Fin 5) = m ((c : Thread nD τ).loc main_arg0) :=
  (dats (F := F) m 0 c).arrAt_in (0 : Fin 5) rfl _
theorem finalA_w (c : Dev nD) : finalA m c (1 : Fin 5) = m ((c : Thread nD τ).loc main_arg2) :=
  (dats (F := F) m 0 c).arrAt_in (1 : Fin 5) rfl _
theorem finalA_adj (c : Dev nD) : finalA m c (2 : Fin 5) = m ((c : Thread nD τ).loc main_arg1) :=
  (dats (F := F) m 0 c).arrAt_in (2 : Fin 5) rfl _

/-- THE FRAME: the program runs to the end, faulting nowhere, and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (finalA_x m c), (h c 2).trans (finalA_adj m c), (h c 1).trans (finalA_w m c)⟩)
    (run_main m ρ)

end Cert.KernelIdeal.Carry

end
-- ==== Proof.CarryBits.lean ====
/-
  The frame of the word-level program's one kernel region, and what its run leaves in every array.

  The region walks 25 grid points. Two of its five windows — the node features and the weights — never move: they
  are fetched once, before the first point, and only the first point reads them, storing their product (the
  projected features) whole into a scratch buffer that lives as long as the region. Every point then takes TWO
  adjacent 200-row blocks of the adjacency matrix — two windows onto the ONE adjacency array, at block rows 2t and
  2t+1 —, multiplies each with the scratch, rectifies, and stores the two results as the halves of a 400-row output
  block, which is written back at once.

  So the proof data says: every input buffer is left at its block; the output buffer at the two rectified
  products; and the invariant carried from point to point is the scratch buffer — at anything before the first
  point, at the projected features ever after. The body is run once for each way its one branch ("is this the
  first point?") goes. Since two windows read one array, that array cannot be held whole by either: each holds it
  at one half of the full share, the two halves being split off the whole at the launch.
  Everything is stated for any float instance.
-/
import proofs.«172428_g23965917511725_cont_8to1_1037_7_alg».proof.Proof.Gen.Kernel.Skeleton
import proofs.«172428_g23965917511725_cont_8to1_1037_7_alg».proof.Proof.Gen.Kernel.Launch
import proofs.«172428_g23965917511725_cont_8to1_1037_7_alg».proof.Proof.Gen.Kernel.Points
import Idealize.ShloMosaic.Lib.Pipeline.Kit
import Idealize.ShloMosaic.Lib.Pipeline.Launch
import Idealize.ShloMosaic.Lib.Pipeline.Frame
import Idealize.ShloMosaic.Lib.Pipeline.FrameBody
import Idealize.ShloMosaic.Lib.Ring
import Idealize.ShloMosaic.Lib.Pipeline.Value
import Idealize.ShloMosaic.Lib.Tactic

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rA : Rect S200x10000 := Rect.unit (s := S200x10000) ![0, 0] S200x10000.size inb_S200x10000_S200x10000_0_0
abbrev rTop : Rect S400x128 := Rect.unit (s := S400x128) ![0, 0] S200x128.size inb_S400x128_S200x128_0_0
abbrev rBot : Rect S400x128 := Rect.unit (s := S400x128) ![200, 0] S200x128.size inb_S400x128_S200x128_200_0

/-- The body's one branch: "this is the grid's first point" (the coordinate compared with zero, as printed). -/
abbrev atFirst (i : grid0.Coords) : Prop :=
  Scalar.cmpi .ne (Scalar.extui (Scalar.cmpi .eq (BitVec.ofNat 32 (i 0).val) 0#32) : BitVec 32) 0#32 = 1#1

/-- Over the grid the branch is taken at point 0 and nowhere else. -/
theorem atFirst_iff : ∀ t : Fin cfg0.N, atFirst (grid0.coords t) ↔ t.val = 0 :=
  (by decide +kernel : ∀ t : Fin grid0.N, atFirst (grid0.coords t) ↔ t.val = 0)

/-- The literal offsets of a whole-buffer access are all zero. -/
theorem hz2 : (![0, 0] : Fin 2 → ℕ) = fun _ => 0 := by
  funext a; match a with | ⟨0, _⟩ => rfl | ⟨1, _⟩ => rfl

/-! ## What the body leaves -/

/-- The projected features the first point keeps in the scratch: the product of the two resident blocks. -/
def kept (x : Vec F S10000x128 .f32) (w : Vec F S128x128 .f32) : Vec F S10000x128 .bf16 :=
  k0_pay1 (View.ld x rX) (View.ld w rW)

/-- The output block after the body, from the two adjacency row blocks `a`, `b` and the scratch `s`: rows 0–199
    the rectified product of `a` with the scratch, rows 200–399 that of `b` (the later store listed first). -/
def outBlk (a b : Vec F S200x10000 .f32) (s : Vec F S10000x128 .bf16) : Vec F S400x128 .f32 :=
  View.canon [⟨rBot, k0_pay3 (View.ld b rA) s⟩, ⟨rTop, k0_pay2 (View.ld a rA) s⟩]

/-- The two half blocks tile the output block. -/
theorem outCover (p q : Vec F S200x128 .f32) (y : S400x128.Idx) :
    ∃ pc ∈ ([⟨rBot, p⟩, ⟨rTop, q⟩] : List (View.Piece (Elt F) S400x128 .f32)), y ∈ pc.1.set :=
  View.cover_of_tiledL [⟨rBot, p⟩, ⟨rTop, q⟩] S200x128.size (by sl_kernel_rfl) y

/-! ## The body's triple, case by case -/

set_option maxHeartbeats 1000000 in
/-- At a later point the branch is skipped: the two row blocks are multiplied with the scratch as it stands, the
    output block is overwritten whole, and the scratch and the inputs are left as found. -/
theorem kernelLater (c : Dev nD) (E : Set ℕ) (i : grid0.Coords) (hc : ¬ atFirst i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x128 .bf16) (harg6 : arg6.IsWhole)
    (a b : Vec F S200x10000 .f32) (s : Vec F S10000x128 .bf16) (K : PUnit → sProp 𝕄) :
    iprop(owns (c : Thread nD τ) arg3 fullShare a ∗ owns (c : Thread nD τ) arg4 fullShare b
        ∗ (∃ d, owns (c : Thread nD τ) arg5 fullShare d) ∗ owns (c : Thread nD τ) arg6 fullShare s
        ∗ (iprop(owns (c : Thread nD τ) arg3 fullShare a ∗ owns (c : Thread nD τ) arg4 fullShare b
            ∗ owns (c : Thread nD τ) arg5 fullShare (outBlk a b s) ∗ owns (c : Thread nD τ) arg6 fullShare s) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f3, %hf3, H3⟩, ⟨%f4, %hf4, H4⟩, ⟨%d5, %f5, -, H5⟩, ⟨%f6, %hf6, H6⟩, Hk⟩
  subst hf3 hf4 hf6
  sl_exec (disch := exact hc)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (outCover _ _)]
    unfold outBlk
    have e : View.readAt (Elt F) arg6.view rX.toLoadRect f6 = View.read (Elt F) arg6.view f6 :=
      View.ld_unit_zero (S := S10000x128) hz2 inb_S10000x128_S10000x128_0_0 (View.read (Elt F) arg6.view f6)
    rw [e]
    try rfl
  iexists f6; isplitr; · ipureintro; rfl
  iexact H6

set_option maxHeartbeats 1000000 in
/-- At the first point the branch is taken: the scratch is overwritten whole with the product of the two resident
    blocks, whatever it held; the two row blocks are then multiplied with what was just stored. -/
theorem kernelFirst (c : Dev nD) (E : Set ℕ) (i : grid0.Coords) (hc : atFirst i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x128 .bf16) (harg6 : arg6.IsWhole)
    (x : Vec F S10000x128 .f32) (w : Vec F S128x128 .f32) (a b : Vec F S200x10000 .f32) (K : PUnit → sProp 𝕄) :
    iprop(owns (c : Thread nD τ) arg1 fullShare x ∗ owns (c : Thread nD τ) arg2 fullShare w
        ∗ owns (c : Thread nD τ) arg3 fullShare a ∗ owns (c : Thread nD τ) arg4 fullShare b
        ∗ (∃ d, owns (c : Thread nD τ) arg5 fullShare d) ∗ (∃ s, owns (c : Thread nD τ) arg6 fullShare s)
        ∗ (iprop(owns (c : Thread nD τ) arg1 fullShare x ∗ owns (c : Thread nD τ) arg2 fullShare w
            ∗ owns (c : Thread nD τ) arg3 fullShare a ∗ owns (c : Thread nD τ) arg4 fullShare b
            ∗ owns (c : Thread nD τ) arg5 fullShare (outBlk a b (kept x w)) ∗ owns (c : Thread nD τ) arg6 fullShare (kept x w)) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d5, %f5, -, H5⟩, ⟨%s6, %f6, -, H6⟩, Hk⟩
  subst hf1 hf2 hf3 hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (outCover _ _)]
    unfold outBlk kept
    sl_unfold_words
    simp only [View.readCov_unit_zero (S := S10000x128) _ hz2]
    rfl
  iexists _; isplitr
  swap; · iexact H6
  ipureintro
  sl_unfold_words
  rw [View.read_writes_eq_canon _ _ _ (fun y => ⟨_, List.mem_singleton_self _, View.mem_set_unit_zero hz2 inb_S10000x128_S10000x128_0_0 y⟩), View.canon_unit_zero hz2]
  rfl

/-! ## The proof data -/

variable (m : (ℓ : Loc nD τ sig) → Buf (Elt F) ℓ) (ρ : Dev nD → PrngReg)

/-- Core `c`'s buffers when the region is entered: as launched (@main is the region alone). -/
abbrev V (c : Dev nD) (b : Ref sig .tc) : Buf (Elt F) ((c : Thread nD τ).loc b) := m ((c : Thread nD τ).loc b)

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid's first point. -/
abbrev t₀ : Fin cfg0.N := ⟨0, by decide⟩

/-- What the scratch holds from the first point on: the product of the features with the weights. -/
def scr (c : Dev nD) : Vec F S10000x128 .bf16 := kept (iblk m c 0 t₀) (iblk m c 1 t₀)

/-- The invariant carried from point to point: the scratch buffer, at anything before the first point and at the
    projected features after it. -/
def Phi (c : Dev nD) : ℕ → sProp 𝕄
  | 0 => iprop(∃ s, owns (c : Thread nD τ) (Memref.whole cc0_scratch0) fullShare s)
  | _ + 1 => owns (c : Thread nD τ) (Memref.whole cc0_scratch0) fullShare (scr m c)

/-- The proof data of the one pipeline on core `c`: the arrays as launched; every input's buffer left at its block;
    the output's at the two rectified products of the point's row blocks with the scratch; the scratch carried;
    nothing owed. The two windows on the adjacency array hold it at complementary halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 2 t) (iblk m c 3 t) (scr m c)
  Φ t := Phi m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 2 t) (iblk m c 3 t) (scr m c) := by dsimp only [dats]

/-- An input's buffer holds its block at every point, fetched there or not: the body leaves it in place, and where
    it is not fetched its block index has not moved. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- The output's buffer is fresh at every point: the point before wrote its block back. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. At the first the scratch is at anything and ends at the projected features; at a later
    one it is at the projected features and is only read. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, Phi_castSucc, Phi_succ]
  by_cases h0 : t.val = 0
  · have hc : atFirst (grid0.coords t) := (atFirst_iff t).mpr h0
    obtain rfl : t = t₀ := Fin.ext h0
    show iprop(Phi m c 0 ∗ _) ⊢ _
    unfold Phi
    iintro ⟨⟨%s, HΦ⟩, Ho, ⟨%d0, H0⟩, ⟨%d1, H1⟩, ⟨%d2, H2⟩, ⟨%d3, H3⟩, ⟨%d4, H4⟩⟩
    iapply (kernelFirst c Set.univ _ hc _ _ _ _ _ _ _ _ _ _ _ _ (iblk m c 0 t₀) (iblk m c 1 t₀) (iblk m c 2 t₀) (iblk m c 3 t₀) _)
    isplitl [H0]; · iexact H0
    isplitl [H1]; · iexact H1
    isplitl [H2]; · iexact H2
    isplitl [H3]; · iexact H3
    isplitl [H4]; · iexists _; iexact H4
    isplitl [HΦ]; · iexists _; iexact HΦ
    iintro ⟨H0, H1, H2, H3, H4, HΦ⟩
    isplitl [HΦ]; · iexact HΦ
    isplitl [Ho]; · iexact Ho
    isplitl [H0]; · iexact H0
    isplitl [H1]; · iexact H1
    isplitl [H2]; · iexact H2
    isplitl [H3]; · iexact H3
    iexact H4
  · have hc : ¬ atFirst (grid0.coords t) := fun h => h0 ((atFirst_iff t).mp h)
    obtain ⟨n, hn⟩ : ∃ n, t.val = n + 1 := ⟨t.val - 1, by omega⟩
    rw [hn]
    show iprop(Phi m c (n + 1) ∗ _) ⊢ _
    unfold Phi
    iintro ⟨HΦ, Ho, ⟨%d0, H0⟩, ⟨%d1, H1⟩, ⟨%d2, H2⟩, ⟨%d3, H3⟩, ⟨%d4, H4⟩⟩
    iapply (kernelLater c Set.univ _ hc _ _ _ _ _ _ _ _ _ _ _ _ (iblk m c 2 t) (iblk m c 3 t) (scr m c) _)
    isplitl [H2]; · iexact H2
    isplitl [H3]; · iexact H3
    isplitl [H4]; · iexists _; iexact H4
    isplitl [HΦ]; · iexact HΦ
    iintro ⟨H2, H3, H4, HΦ⟩
    isplitl [HΦ]; · iexact HΦ
    isplitl [Ho]; · iexact Ho
    isplitl [H0]; · iexact H0
    isplitl [H1]; · iexact H1
    isplitl [H2]; · iexact H2
    isplitl [H3]; · iexact H3
    iexact H4

theorem body_obligation (c : Dev nD) : BodyObligationLoose (dats (F := F) m 0 c) (defs₀ (F := F)) Variants.none () Set.univ := fun t => by
  rw [bigSep_W0, bigSep_W0]
  exact sound_body m c t

end Cert.Kernel.Carry

end
-- ==== Proof.CarryRunBits.lean ====
/-
  The launch of the word-level program's region and the frame read off it.

  The region's five windows sit on four buffers: the adjacency array is read through two windows. At the launch
  the buffers are whole; the adjacency array is split along its share, one half for each of its windows (an input
  is only read, so a half suffices, and the halves rejoin to the whole when the region ends). The scratch is handed
  to the region at anything and returned at anything. The launch theorem for windows sharing an array then gives
  the run: it terminates, nothing faults, and each windowed array ends at what the write-backs make of it — for the
  three arguments, read only, what they held.
-/
import proofs.«172428_g23965917511725_cont_8to1_1037_7_alg».proof.Proof.CarryBits
import Idealize.ShloMosaic.Lib.Pipeline.Kit
import Idealize.ShloMosaic.Lib.Pipeline.Launch
import Idealize.ShloMosaic.Rules.PointsTo

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The proof's resource algebra: one copy of the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The windows' arrays, each a whole buffer, at the share its window holds it at. -/
theorem arrays_eq (c : Dev nD) (G : (w : Fin cfg0.W) → Buf (Elt F) ((cfg0.win w).arr.view.loc (c : Thread nD τ))) :
    ((dats m 0 c).arrays G : sProp 𝕄)
      = bigSep Finset.univ fun w => (((c : Thread nD τ).loc (Pipeline.arrRef spec0 w)) ↦{(dats m 0 c).share w} G w : sProp 𝕄) := by
  unfold Dat.arrays
  exact bigSep_congr fun w _ => by rw [(arr_whole0 w).set_eq_univ]

theorem share_0 (c : Dev nD) : (dats m 0 c).share 0 = fullShare := by unfold Dat.share; rfl
theorem share_1 (c : Dev nD) : (dats m 0 c).share 1 = fullShare := by unfold Dat.share; rfl
theorem share_2 (c : Dev nD) : (dats m 0 c).share 2 = fullShare.left := by unfold Dat.share; rfl
theorem share_3 (c : Dev nD) : (dats m 0 c).share 3 = fullShare.right := by unfold Dat.share; rfl
theorem share_4 (c : Dev nD) : (dats m 0 c).share 4 = fullShare := by unfold Dat.share; rfl

/-- The four buffers behind the five windows, each whole at the full share, make the windows' arrays at entry: the
    adjacency array, read through two windows, is split along its share — one half to each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs
  rw [arrays_eq, bigSep_eq_bigSepL_of_eq [main_arg0, main_arg2, main_arg1, main_v0] (by decide) (by decide), bigSep_W0,
    share_0, share_1, share_2, share_3, share_4]
  show (iprop((((c : Thread nD τ).loc main_arg0) ↦{fullShare} V m c main_arg0)
      ∗ (((c : Thread nD τ).loc main_arg2) ↦{fullShare} V m c main_arg2)
      ∗ (((c : Thread nD τ).loc main_arg1) ↦{fullShare} V m c main_arg1)
      ∗ (((c : Thread nD τ).loc main_v0) ↦{fullShare} V m c main_v0)) : sProp 𝕄) ⊢ _
  iintro ⟨H0, H2, H1, Hv⟩
  ihave H1 := (pointsTo_share (PosShare.mem_left_op_right fullShare)).1 $$ H1
  icases H1 with ⟨H1l, H1r⟩
  isplitl [H0]; · iexact H0
  isplitl [H2]; · iexact H2
  isplitl [H1l]; · iexact H1l
  isplitl [H1r]; · iexact H1r
  iexact Hv

/-- What the launch hands the region — the scratch at anything — is the invariant before the first point. -/
theorem hin (c : Dev nD) : iprop(emp ∗ Pipeline.scopedRest spec0 c) ⊢ (dats m 0 c).Φ 0 := by
  rw [scopedRest0_eq, show (dats m 0 c).Φ 0 = Phi m c 0 from rfl]
  unfold Phi
  simp only [owns_whole]
  iintro ⟨-, ⟨%f, H⟩⟩
  iexists f; iexact H

/-- After the last point the invariant gives the scratch back, its contents forgotten. -/
theorem hout (c : Dev nD) : (dats m 0 c).Φ (Fin.last cfg0.N) ⊢ iprop(emp ∗ Pipeline.scopedRest spec0 c) := by
  rw [scopedRest0_eq, show (dats m 0 c).Φ (Fin.last cfg0.N) = Phi m c (24 + 1) from rfl]
  unfold Phi
  simp only [owns_whole]
  iintro H
  isplitr; · iempintro
  iexists _; iexact H

/-- An array's contents after the run, as the library computes them. -/
def finalA (c : Dev nD) (w : Fin cfg0.W) : Buf (Elt F) ((cfg0.win w).arr.view.loc (c : Thread nD τ)) :=
  (dats m 0 c).arrAt w cfg0.N

/-- The physical post: every windowed array holds what the library computes it holds after the last write-back. -/
def QC : PUnit × MemSt nD τ sig (Elt F) → Prop := fun r =>
  ∀ (c : Dev nD) (w : Fin cfg0.W), r.2.mem ((cfg0.win w).arr.view.loc (c : Thread nD τ)) = finalA m c w

set_option backward.isDefEq.respectTransparency.types false in
/-- For any float values, from any memory with zero counters: every weakly fair execution of @main terminates,
    and every final state has each windowed array at its computed contents. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The three argument arrays are inputs of the region: after the run they hold what they held. -/
theorem finalA_x (c : Dev nD) : finalA m c (0 : Fin 5) = m ((c : Thread nD τ).loc main_arg0) :=
  (dats (F := F) m 0 c).arrAt_in (0 : Fin 5) rfl _
theorem finalA_w (c : Dev nD) : finalA m c (1 : Fin 5) = m ((c : Thread nD τ).loc main_arg2) :=
  (dats (F := F) m 0 c).arrAt_in (1 : Fin 5) rfl _
theorem finalA_adj (c : Dev nD) : finalA m c (2 : Fin 5) = m ((c : Thread nD τ).loc main_arg1) :=
  (dats (F := F) m 0 c).arrAt_in (2 : Fin 5) rfl _

/-- THE FRAME: the program runs to the end, faulting nowhere, and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (finalA_x m c), (h c 2).trans (finalA_adj m c), (h c 1).trans (finalA_w m c)⟩)
    (run_main m ρ)

end Cert.Kernel.Carry

end
-- ==== Proof.Layer.lean ====
/-
  The graph-convolution layer as one function of its three arguments, index by index, over the extended reals:
  the node features `x : [10000, 128]` are first projected by the weights `W : [128, 128]`,
      proj x W (k, j) = Σ l, x (k, l) · W (l, j),
  then every node `r` gathers the projected features of all nodes, weighted by its row of the dense adjacency
  `adj : [10000, 10000]`, and the negative part is cut off:
      layer x adj W (r, j) = max (Σ k, adj (r, k) · proj x W (k, j)) 0.
  Both programs of this certificate compute the two products in this very grouping, so no law of the extended
  reals beyond reading each product as a sum is needed to join them.
-/
import Idealize.ShloMosaic.PureOps.Ideal
import Idealize.ShloMosaic.Lib.ValueIdx

noncomputable section

open scoped BigOperators

namespace Cert.Gcn

open Idealize.ShloMosaic Idealize.ShloMosaic.ValueIdx

/-- Node features and the layer's result: 10000 nodes, 128 features each. -/
abbrev Feat : Shape := ⟨2, ![10000, 128]⟩
/-- The dense adjacency: one row of 10000 weights per node. -/
abbrev Adj : Shape := ⟨2, ![10000, 10000]⟩
/-- The projection's weights. -/
abbrev Wts : Shape := ⟨2, ![128, 128]⟩

/-- The zero the rectifier compares with: the all-zero f32 word read at the ideal instance. -/
abbrev zeroF : EReal := Ideal.ofBits .f32 0x00000000#32

/-- The projected features: node `k`'s feature `j` after the weights. -/
def proj (x : Feat.Idx → EReal) (W : Wts.Idx → EReal) (k : Fin 10000) (j : Fin 128) : EReal :=
  ∑ l : Fin 128, x (ix2 k l) * W (ix2 l j)

/-- The layer: aggregate the projected features along each adjacency row, then rectify. -/
def layer (x : Feat.Idx → EReal) (adj : Adj.Idx → EReal) (W : Wts.Idx → EReal) : Feat.Idx → EReal :=
  fun i => max (∑ k : Fin 10000, adj (ix2 (i 0) k) * proj x W k (i 1)) zeroF

theorem layer_apply (x : Feat.Idx → EReal) (adj : Adj.Idx → EReal) (W : Wts.Idx → EReal) (r : Fin 10000) (j : Fin 128) :
    layer x adj W (ix2 r j) = max (∑ k : Fin 10000, adj (ix2 r k) * proj x W k j) zeroF := rfl

end Cert.Gcn

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelLayer.lean ====
/-
  What the idealized kernel's run leaves in the result array is the layer.

  Read at the ideal instance, where a change of float format is the identity and a matrix product into the zero
  accumulator is the plain sum: the scratch the first point fills is the projected features,
      scratch (k, j) = Σ l, x (k, l) · W (l, j),
  and the output block of point `t` holds, in its row `p < 200`, the rectified product of row `p` of the
  adjacency block at block row `2t` with the scratch, and in its row `200 + p` the same of the block at block row
  `2t + 1`. Block row `2t` starts at adjacency row `400 t` and block row `2t + 1` at `400 t + 200`, so both halves
  say one thing: row `q` of the output block is row `400 t + q` of the layer. The 25 output blocks tile the result
  array (row `r` lies in the block of point `r / 400`), so the array ends at the layer whole.
-/
import proofs.«172428_g23965917511725_cont_8to1_1037_7_alg».proof.Proof.Carry
import proofs.«172428_g23965917511725_cont_8to1_1037_7_alg».proof.Proof.Layer
import proofs.«172428_g23965917511725_cont_8to1_1037_7_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.KernelLayer

open Cert.KernelIdeal Cert.KernelIdeal.Gen Cert.KernelIdeal.Carry
open Idealize.ShloMosaic Idealize.ShloMosaic.TcCoe Idealize.ShloMosaic.ValueIdx Idealize.SL.Sem
open Idealize.ShloMosaic.Pipeline (Dat)

/-! ## The payloads at an entry -/

/-- The scratch's contents at `(k, j)`: node `k`'s projected feature `j`. -/
theorem kept_apply (x : Vec Ideal S10000x128 .f32) (w : Vec Ideal S128x128 .f32) (k : Fin 10000) (j : Fin 128) :
    kept x w (ix2 k j) = ∑ l : Fin 128, x (ix2 k l) * w (ix2 l j) := by
  unfold kept k0_pay1
  simp only [View.ld_unit_zero (S := S10000x128) hz2, View.ld_unit_zero (S := S128x128) hz2]
  rw [shapeCast_self]
  exact Cert.RowOps.matmul_apply (φ₁ := .f32) (φ₂ := .f32) _ none x w k j

/-- The upper half block's payload at `(p, j)`: the rectified aggregate of row `p` of the row block `a`. -/
theorem pay2_apply (a : Vec Ideal S200x10000 .f32) (s : Vec Ideal S10000x128 .bf16) (p : Fin 200) (j : Fin 128) :
    k0_pay2 a s (ix2 p j) = max (∑ k : Fin 10000, a (ix2 p k) * s (ix2 k j)) Cert.Gcn.zeroF := by
  unfold k0_pay2
  exact congrArg₂ max (Cert.RowOps.matmul_apply (φ₁ := .bf16) (φ₂ := .bf16) _ none (truncf .bf16 a bitsLt_bf16_f32) s p j) rfl

/-- The lower half block's payload: the same of the row block `b`. -/
theorem pay3_apply (b : Vec Ideal S200x10000 .f32) (s : Vec Ideal S10000x128 .bf16) (p : Fin 200) (j : Fin 128) :
    k0_pay3 b s (ix2 p j) = max (∑ k : Fin 10000, b (ix2 p k) * s (ix2 k j)) Cert.Gcn.zeroF := by
  unfold k0_pay3
  exact congrArg₂ max (Cert.RowOps.matmul_apply (φ₁ := .bf16) (φ₂ := .bf16) _ none (truncf .bf16 b bitsLt_bf16_f32) s p j) rfl

/-! ## The windows' blocks, read off the argument arrays -/

variable (m : (ℓ : Loc nD τ sig) → Buf (Elt Ideal) ℓ)

/-- The printed index maps, decided over the grid: the features' and the weights' windows stay at block 0; the two
    adjacency windows are at block rows `2t` and `2t + 1`; the output's at block row `t`. -/
theorem idx_facts : ∀ t : Fin cfg0.N,
      win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

/-- A point's number is below 25 (for the row arithmetic). -/
theorem t_lt (t : Fin cfg0.N) : t.val < 25 := lt_of_lt_of_eq t.isLt N_0

theorem xblk_apply (c : Dev nD) (t : Fin cfg0.N) (k : Fin 10000) (l : Fin 128) :
    iblk m c 0 t (ix2 k l) = m ((c : Thread nD τ).loc main_arg0) (ix2 k l) := by
  obtain ⟨e0, e1, -⟩ := idx_facts t
  show V m c main_arg0 (((cfg0.win 0).blk t).view.emb (ix2 k l)) = V m c main_arg0 (ix2 k l)
  refine congrArg _ (funext fun a => Fin.ext ?_)
  match a with
  | ⟨0, _⟩ => show win0_0.index t (0 : Fin 2) * 10000 + 1 * k.val = k.val; omega
  | ⟨1, _⟩ => show win0_0.index t (1 : Fin 2) * 128 + 1 * l.val = l.val; omega

theorem wblk_apply (c : Dev nD) (t : Fin cfg0.N) (l : Fin 128) (j : Fin 128) :
    iblk m c 1 t (ix2 l j) = m ((c : Thread nD τ).loc main_arg2) (ix2 l j) := by
  obtain ⟨-, -, e0, e1, -⟩ := idx_facts t
  show V m c main_arg2 (((cfg0.win 1).blk t).view.emb (ix2 l j)) = V m c main_arg2 (ix2 l j)
  refine congrArg _ (funext fun a => Fin.ext ?_)
  match a with
  | ⟨0, _⟩ => show win0_1.index t (0 : Fin 2) * 128 + 1 * l.val = l.val; omega
  | ⟨1, _⟩ => show win0_1.index t (1 : Fin 2) * 128 + 1 * j.val = j.val; omega

/-- Row `p` of the first adjacency block of point `t` is adjacency row `400 t + p`. -/
theorem ablk_apply (c : Dev nD) (t : Fin cfg0.N) (p : Fin 200) (k : Fin 10000) (r : Fin 10000) (hr : r.val = 400 * t.val + p.val) :
    iblk m c 2 t (ix2 p k) = m ((c : Thread nD τ).loc main_arg1) (ix2 r k) := by
  obtain ⟨-, -, -, -, e0, e1, -⟩ := idx_facts t
  show V m c main_arg1 (((cfg0.win 2).blk t).view.emb (ix2 p k)) = V m c main_arg1 (ix2 r k)
  refine congrArg _ (funext fun a => Fin.ext ?_)
  match a with
  | ⟨0, _⟩ => show win0_2.index t (0 : Fin 2) * 200 + 1 * p.val = r.val; omega
  | ⟨1, _⟩ => show win0_2.index t (1 : Fin 2) * 10000 + 1 * k.val = k.val; omega

/-- Row `p` of the second adjacency block of point `t` is adjacency row `400 t + 200 + p`. -/
theorem bblk_apply (c : Dev nD) (t : Fin cfg0.N) (p : Fin 200) (k : Fin 10000) (r : Fin 10000) (hr : r.val = 400 * t.val + 200 + p.val) :
    iblk m c 3 t (ix2 p k) = m ((c : Thread nD τ).loc main_arg1) (ix2 r k) := by
  obtain ⟨-, -, -, -, -, -, e0, e1, -⟩ := idx_facts t
  show V m c main_arg1 (((cfg0.win 3).blk t).view.emb (ix2 p k)) = V m c main_arg1 (ix2 r k)
  refine congrArg _ (funext fun a => Fin.ext ?_)
  match a with
  | ⟨0, _⟩ => show win0_3.index t (0 : Fin 2) * 200 + 1 * p.val = r.val; omega
  | ⟨1, _⟩ => show win0_3.index t (1 : Fin 2) * 10000 + 1 * k.val = k.val; omega

/-- The scratch from the first point on is the projected features. -/
theorem scr_apply (c : Dev nD) (k : Fin 10000) (j : Fin 128) :
    scr m c (ix2 k j) = Cert.Gcn.proj (m ((c : Thread nD τ).loc main_arg0)) (m ((c : Thread nD τ).loc main_arg2)) k j := by
  unfold scr
  rw [kept_apply]
  unfold Cert.Gcn.proj
  refine Finset.sum_congr rfl fun l _ => ?_
  rw [xblk_apply, wblk_apply]

/-! ## The output block, half by half -/

/-- An entry in rows 0–199 of the output block is outside the rectangle of the later store. -/
theorem not_mem_bot (j : Fin 128) (q : Fin 400) (hq : q.val < 200) : (ix2 q j : S400x128.Idx) ∉ rBot.set := by
  rw [Rect.mem_set_unit]
  intro h
  have h0 := (h 0).1
  change 200 ≤ q.val at h0
  omega

/-- The earlier store alone, read at one of its rows. -/
theorem canon_top (a : Vec Ideal S200x10000 .f32) (s : Vec Ideal S10000x128 .bf16) (p : Fin 200) (j : Fin 128)
    (q : Fin 400) (hq : q.val = p.val) :
    View.canon [(⟨rTop, k0_pay2 (View.ld a rA) s⟩ : View.Piece (Elt Ideal) S400x128 .f32)] (ix2 q j) = k0_pay2 a s (ix2 p j) := by
  have e : (ix2 q j : S400x128.Idx) = rTop.emb (ix2 p j) := funext fun a => Fin.ext (by
    match a with
    | ⟨0, _⟩ => show q.val = 0 + 1 * p.val; omega
    | ⟨1, _⟩ => show j.val = 0 + 1 * j.val; omega)
  rw [e, View.canon_cons_emb]
  simp only [View.ld_unit_zero (S := S200x10000) hz2]

/-- Rows 0–199 of the output block: the later store does not reach them, the earlier one wrote them. -/
theorem outBlk_top (a b : Vec Ideal S200x10000 .f32) (s : Vec Ideal S10000x128 .bf16) (p : Fin 200) (j : Fin 128)
    (q : Fin 400) (hq : q.val = p.val) :
    outBlk a b s (ix2 q j) = k0_pay2 a s (ix2 p j) := by
  unfold outBlk
  exact (View.canon_cons_of_not_mem (⟨rBot, k0_pay3 (View.ld b rA) s⟩ : View.Piece (Elt Ideal) S400x128 .f32)
    [⟨rTop, k0_pay2 (View.ld a rA) s⟩] (not_mem_bot j q (by have := p.isLt; omega))).trans (canon_top a s p j q hq)

/-- Rows 200–399: the later store wrote them. -/
theorem outBlk_bot (a b : Vec Ideal S200x10000 .f32) (s : Vec Ideal S10000x128 .bf16) (p : Fin 200) (j : Fin 128)
    (q : Fin 400) (hq : q.val = 200 + p.val) :
    outBlk a b s (ix2 q j) = k0_pay3 b s (ix2 p j) := by
  unfold outBlk
  have e : (ix2 q j : S400x128.Idx) = rBot.emb (ix2 p j) := funext fun a => Fin.ext (by
    match a with
    | ⟨0, _⟩ => show q.val = 200 + 1 * p.val; omega
    | ⟨1, _⟩ => show j.val = 0 + 1 * j.val; omega)
  rw [e, View.canon_cons_emb]
  simp only [View.ld_unit_zero (S := S200x10000) hz2]

/-- Row `q` of point `t`'s output block is row `400 t + q` of the layer. -/
theorem outBlk_apply (c : Dev nD) (t : Fin cfg0.N) (q : Fin 400) (j : Fin 128) (r : Fin 10000) (hr : r.val = 400 * t.val + q.val) :
    outBlk (iblk m c 2 t) (iblk m c 3 t) (scr m c) (ix2 q j)
      = Cert.Gcn.layer (m ((c : Thread nD τ).loc main_arg0)) (m ((c : Thread nD τ).loc main_arg1)) (m ((c : Thread nD τ).loc main_arg2)) (ix2 r j) := by
  rw [Cert.Gcn.layer_apply]
  by_cases h : q.val < 200
  · rw [outBlk_top _ _ _ ⟨q.val, h⟩ j q rfl, pay2_apply]
    refine congrArg₂ max (Finset.sum_congr rfl fun k _ => ?_) rfl
    rw [ablk_apply m c t ⟨q.val, h⟩ k r hr, scr_apply]
  · rw [outBlk_bot _ _ _ ⟨q.val - 200, by have := q.isLt; omega⟩ j q (by show q.val = 200 + (q.val - 200); omega), pay3_apply]
    refine congrArg₂ max (Finset.sum_congr rfl fun k _ => ?_) rfl
    rw [bblk_apply m c t ⟨q.val - 200, by have := q.isLt; omega⟩ k r (by show r.val = 400 * t.val + 200 + (q.val - 200); omega), scr_apply]

/-! ## From the blocks to the array -/

/-- What point `t` writes back is block `t` of the layer of the argument arrays. -/
theorem flushed_eq (c : Dev nD) (t : Fin cfg0.N) :
    (dats m 0 c).flushed 4 t = ((cfg0.win 4).blk t).view.read (Elt Ideal)
      (Cert.Gcn.layer (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  funext y
  obtain ⟨-, -, -, -, -, -, -, -, e0, e1⟩ := idx_facts t
  have ht := t_lt t
  have hy0 : (y 0).val < 400 := (y 0).isLt
  have hy1 : (y 1).val < 128 := (y 1).isLt
  show outBlk (iblk m c 2 t) (iblk m c 3 t) (scr m c) y = Cert.Gcn.layer _ _ _ (((cfg0.win 4).blk t).view.emb y)
  have ey : y = ix2 (⟨(y 0).val, hy0⟩ : Fin 400) (⟨(y 1).val, hy1⟩ : Fin 128) := funext fun a => Fin.ext (by
    match a with | ⟨0, _⟩ => rfl | ⟨1, _⟩ => rfl)
  have ee : ((cfg0.win 4).blk t).view.emb y = ix2 (⟨400 * t.val + (y 0).val, by omega⟩ : Fin 10000) (⟨(y 1).val, hy1⟩ : Fin 128) :=
    funext fun a => Fin.ext (by
      match a with
      | ⟨0, _⟩ => show win0_4.index t (0 : Fin 2) * 400 + 1 * (y 0).val = 400 * t.val + (y 0).val; omega
      | ⟨1, _⟩ => show win0_4.index t (1 : Fin 2) * 128 + 1 * (y 1).val = (y 1).val; omega)
  rw [ee]
  refine (congrArg (outBlk (iblk m c 2 t) (iblk m c 3 t) (scr m c)) ey).trans ?_
  exact outBlk_apply m c t _ _ _ rfl

/-- An index of the result array is in point `t`'s block iff its row is among the block's 400. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- The 25 output blocks cover the result array: row `r` lies in the block of point `r / 400`. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨-, -, -, -, -, -, -, -, e0, e1⟩ := idx_facts t
  have et : t.val = (i 0).val / 400 := rfl
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- THE RESULT ARRAY after the run is the layer of the three argument arrays. -/
theorem final_out (c : Dev nD) :
    (dats m 0 c).arrAt 4 cfg0.N
      = Cert.Gcn.layer (m ((c : Thread nD τ).loc main_arg0)) (m ((c : Thread nD τ).loc main_arg1)) (m ((c : Thread nD τ).loc main_arg2)) :=
  (dats m 0 c).arrAt_eq_of_cover 4 _ (fun t _ => flushed_eq m c t) cover

end Cert.KernelIdeal.KernelLayer

end
-- ==== Proof.RefLayer.lean ====
/-
  The reference's result is the layer. Its run ends with the rectified second product; read one operation at a
  time at an index `(r, j)` — the rectifier as `max` with the zero splat, the second product as the sum over the
  nodes `k` of `adj (r, k)` times the first product at `(k, j)`, the first product as the sum over the features
  `l` of `x (k, l) · W (l, j)` — it is `Cert.Gcn.layer` term by term; only the operand indices have to be
  recognised as the pairs `(r, k)`, `(k, j)`, `(k, l)`, `(l, j)`.
-/
import proofs.«172428_g23965917511725_cont_8to1_1037_7_alg».proof.Proof.Gen.ReferenceIdeal.Run
import proofs.«172428_g23965917511725_cont_8to1_1037_7_alg».proof.Proof.Gen.ReferenceIdeal.Read
import proofs.«172428_g23965917511725_cont_8to1_1037_7_alg».proof.Proof.Layer
import Idealize.ShloMosaic.PureOps.Ideal.Laws
import Idealize.ShloMosaic.Lib.ValueIdx

noncomputable section

namespace Cert.ReferenceIdeal.RefLayer

open Cert.ReferenceIdeal Cert.ReferenceIdeal.Read
open Idealize.ShloMosaic Idealize.ShloMosaic.ValueIdx

/-- The operand indices of the two products, as pairs of coordinates. -/
theorem lidx1 (r : Fin 10000) (j : Fin 128) (k : Fin 10000) : lidx_main_v1 (ix2 r j) k = ix2 r k :=
  funext fun a => Fin.ext (by match a with | ⟨0, _⟩ => rfl | ⟨1, _⟩ => rfl)
theorem ridx1 (r : Fin 10000) (j : Fin 128) (k : Fin 10000) : ridx_main_v1 (ix2 r j) k = ix2 k j :=
  funext fun a => Fin.ext (by match a with | ⟨0, _⟩ => rfl | ⟨1, _⟩ => rfl)
theorem lidx0 (k : Fin 10000) (j : Fin 128) (l : Fin 128) : lidx_main_v0 (ix2 k j) l = ix2 k l :=
  funext fun a => Fin.ext (by match a with | ⟨0, _⟩ => rfl | ⟨1, _⟩ => rfl)
theorem ridx0 (k : Fin 10000) (j : Fin 128) (l : Fin 128) : ridx_main_v0 (ix2 k j) l = ix2 l j :=
  funext fun a => Fin.ext (by match a with | ⟨0, _⟩ => rfl | ⟨1, _⟩ => rfl)

/-- The reference's last stage, at the ideal instance, is the layer of its three arguments. -/
theorem result_eq (x : S10000x128.Idx → EReal) (adj : S10000x10000.Idx → EReal) (W : S128x128.Idx → EReal) :
    val_main_v2 (F := Ideal) x adj W = Cert.Gcn.layer x adj W := by
  funext i
  obtain ⟨r, j, rfl⟩ : ∃ (r : Fin 10000) (j : Fin 128), i = ix2 r j := ⟨i 0, i 1, eq_ix2 i⟩
  rw [val_main_v2_apply, val_main_v1_apply, val_main_call0_v0_apply, val_main_call0_cst_apply, Cert.Gcn.layer_apply]
  simp only [Ideal.maximumf_def]
  refine congrArg₂ max (Finset.sum_congr rfl fun k _ => ?_) rfl
  rw [lidx1, ridx1, val_main_v0_apply]
  refine congrArg (adj (ix2 r k) * ·) (Finset.sum_congr rfl fun l _ => ?_)
  rw [lidx0, ridx0]

end Cert.ReferenceIdeal.RefLayer

end
-- ==== Proof.lean ====
/-
  A graph-convolution layer, `relu (adj · (x · W))` over 10000 nodes with 128 features, as one kernel region
  against its plain reference: the certificate's five claims.

  The kernel walks the adjacency matrix in 25 steps of 400 rows. The first step also multiplies the features with
  the weights and keeps the product in a scratch buffer for all later steps; every step multiplies its two
  200-row blocks of the adjacency matrix with the scratch and rectifies. The reference forms the same two products
  whole. Over the extended reals both are, at every entry `(r, j)`,
      max (Σ k, adj (r, k) · (Σ l, x (k, l) · W (l, j))) 0
  — the same sums in the same grouping, the kernel's narrowing of its operands to a shorter float format being
  the identity there — so the two results agree with no law beyond reading each product as a sum, and the
  precondition is not used.

  * The frames of the two kernel programs: the region's launch for windows that share an array (the adjacency
    matrix is read through two windows), with the scratch carried from step to step as the region's invariant
    (Proof/Carry.lean, Proof/CarryRun.lean; the word-level program's are the same text at its namespace).
  * The reference's frame: its run with the result dropped.
  * The idealization rewrote nothing, so that claim is trivial.
  * The equivalence: the kernel's result array is the layer (Proof/KernelLayer.lean), the reference's result is
    the layer (Proof/RefLayer.lean), of arguments that agree.
-/
import proofs.«172428_g23965917511725_cont_8to1_1037_7_alg».proof.Defs
import proofs.«172428_g23965917511725_cont_8to1_1037_7_alg».proof.Proof.Gen.Kernel
import proofs.«172428_g23965917511725_cont_8to1_1037_7_alg».proof.Proof.Gen.KernelIdeal
import proofs.«172428_g23965917511725_cont_8to1_1037_7_alg».proof.Proof.Gen.ReferenceIdeal
import proofs.«172428_g23965917511725_cont_8to1_1037_7_alg».proof.Proof.Gen.Pre_finite_inputs
import proofs.«172428_g23965917511725_cont_8to1_1037_7_alg».proof.Proof.CarryRun
import proofs.«172428_g23965917511725_cont_8to1_1037_7_alg».proof.Proof.CarryRunBits
import proofs.«172428_g23965917511725_cont_8to1_1037_7_alg».proof.Proof.KernelLayer
import proofs.«172428_g23965917511725_cont_8to1_1037_7_alg».proof.Proof.RefLayer
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Carry.frame m ρ

theorem frame_ki : Cert.frame_KernelIdeal := fun m ρ _ => Cert.KernelIdeal.Carry.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of their arguments, and the arguments agree. -/
theorem algebraic : Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c 4).trans (Cert.KernelIdeal.KernelLayer.final_out m c),
        (h c 0).trans (Cert.KernelIdeal.Carry.finalA_x m c),
        (h c 2).trans (Cert.KernelIdeal.Carry.finalA_adj m c),
        (h c 1).trans (Cert.KernelIdeal.Carry.finalA_w m c)⟩)
      (Cert.KernelIdeal.Carry.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.ReferenceIdeal.RefLayer.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
